-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S16384x512 .f32) (main_arg1 : FVec F S1000x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S16384x512 : Shape := ⟨2, ![16384, 512]⟩
abbrev S1000x512 : Shape := ⟨2, ![1000, 512]⟩
abbrev S16384x1000 : Shape := ⟨2, ![16384, 1000]⟩
abbrev S1024x512 : Shape := ⟨2, ![1024, 512]⟩
abbrev S1024x1000 : Shape := ⟨2, ![1024, 1000]⟩
abbrev S1024 : Shape := ⟨1, ![1024]⟩
abbrev S1024x1 : Shape := ⟨2, ![1024, 1]⟩
abbrev S1000 : Shape := ⟨1, ![1000]⟩
abbrev S1x1000 : Shape := ⟨2, ![1, 1000]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S16384x1000, .f32⟩
  | .local _ .vmem, ⟨0, _⟩ => ⟨S1024x512, .f32⟩
  | .local _ .vmem, ⟨1, _⟩ => ⟨S1024x512, .f32⟩
  | .local _ .vmem, ⟨2, _⟩ => ⟨S1000x512, .f32⟩
  | .local _ .vmem, ⟨3, _⟩ => ⟨S1024x1000, .f32⟩
  | .local _ .vmem, ⟨4, _⟩ => ⟨S1024x1000, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S1000x512_S1000x512_0_0 : ∀ a, (![0, 0] : Fin 2 → Nat) a + S1000x512.size a ≤ S1000x512.size a
  h_S1000x512 : 0 < S1000x512.numel
  reduces_S1024x512_S1024 : S1024x512.Reduces [1] S1024
  shapeCasts_S1024_S1024x1 : S1024.ShapeCasts S1024x1
  reduces_S1000x512_S1000 : S1000x512.Reduces [1] S1000
  bitsLt_bf16_f32 : FTy.bits .bf16 < FTy.bits .f32
  shapeCasts_S1000_S1x1000 : S1000.ShapeCasts S1x1000
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x512_S1000x512_S1024x1000_1_1_0_0_n_n_wf : DotDims.WF S1024x512 S1000x512 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S16384x1000.size a
  hwx0_2 : ∀ i : grid0.Coords, EltTy.bits .f32 = 32 ∨ (Rect.block (s := S16384x1000) S1024x1000.size (cc0_transform_2 i) (hinb0_2 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S_ : Shape := ⟨0, ![]⟩
abbrev S16384 : Shape := ⟨1, ![16384]⟩
abbrev S16384x1 : Shape := ⟨2, ![16384, 1]⟩
abbrev S1000 : Shape := ⟨1, ![1000]⟩
abbrev S16384x1000 : Shape := ⟨2, ![16384, 1000]⟩
abbrev S1x1000 : Shape := ⟨2, ![1, 1000]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x512, .f32⟩
  | .hbm, ⟨7, _⟩ => ⟨S_, .f32⟩
  | .hbm, ⟨8, _⟩ => ⟨S1000, .f32⟩
  | .hbm, ⟨9, _⟩ => ⟨S16384x1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384x1000, .f32⟩
  | .hbm, ⟨16, _⟩ => ⟨S16384x1000, .f32⟩
  | .hbm, ⟨17, _⟩ => ⟨S16384x1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  dot_S16384x512_S1000x512_S16384x1000_1_1_0_0_n_n_wf : DotDims.WF S16384x512 S1000x512 S16384x1000 [1] [1] [0] [0] [] []

variable [Facts₀]

def dot_S16384x512_S1000x512_S16384x1000_1_1_0_0_n_n : DotDims S16384x512 S1000x512 S16384x1000 where
  lhsContracting := [1]
  rhsContracting := [1]
  lhsNonContracting := [0]
  rhsNonContracting := [0]
  lhsBatch := []
  rhsBatch := []
  wf := dot_S16384x512_S1000x512_S16384x1000_1_1_0_0_n_n_wf

class Facts : Prop extends Facts₀ where

variable [Facts]
-- ==== Proof.SqDist.lean ====
/- The squared Euclidean distance between a point `u` and a prototype `v` of the extended-real space of dimension 512,
   in the expanded form  ‖u‖² + ‖v‖² − 2·⟨u, v⟩  (NOT the form Σ (u_k − v_k)²: the two differ at infinite entries, and both
   programs compute the expanded one), and the table of all such distances between the 16384 rows of `x` and the 1000 rows
   of `p`.  Beside it, three readings of vector layouts at an index: a vector of row values set as a column and repeated
   along every row, a vector of column values set as a row and repeated down every column, and the sum along a row. -/
import Idealize.ShloMosaic.PureOps.Ideal.Laws
import Idealize.ShloMosaic.Lib.ValueIdx
import Idealize.ShloMosaic.Lib.ValueLayout
import Idealize.ShloMosaic.Lib.Pipeline.Value

noncomputable section

namespace Cert.SqDist

open Idealize.ShloMosaic Idealize.ShloMosaic.ValueIdx

/-- ‖u‖² + ‖v‖² − 2·⟨u, v⟩ for two vectors of 512 extended reals; the factor 2 is kept as the f32 word both programs print. -/
def expand (u v : Fin 512 → EReal) : EReal :=
  ((∑ k : Fin 512, u k * u k) + ∑ k : Fin 512, v k * v k) - Ideal.ofBits .f32 0x40000000#32 * ∑ k : Fin 512, u k * v k

/-- The point an output index names: row `i 0` of `x`. -/
abbrev point (x : (⟨2, ![16384, 512]⟩ : Shape).Idx → EReal) (i : (⟨2, ![16384, 1000]⟩ : Shape).Idx) : Fin 512 → EReal :=
  fun k => x (ix2 (⟨(i 0).val, (i 0).isLt⟩ : Fin 16384) k)

/-- The prototype an output index names: row `i 1` of `p`. -/
abbrev proto (p : (⟨2, ![1000, 512]⟩ : Shape).Idx → EReal) (i : (⟨2, ![16384, 1000]⟩ : Shape).Idx) : Fin 512 → EReal :=
  fun k => p (ix2 (⟨(i 1).val, (i 1).isLt⟩ : Fin 1000) k)

/-- The table of distances: entry (b, c) is the expanded squared distance from point b to prototype c. -/
def dist (x : (⟨2, ![16384, 512]⟩ : Shape).Idx → EReal) (p : (⟨2, ![1000, 512]⟩ : Shape).Idx → EReal) :
    (⟨2, ![16384, 1000]⟩ : Shape).Idx → EReal :=
  fun i => expand (point x i) (proto p i)

/-! ## Layouts read at an index -/

variable {α : Type}

/-- A vector of `a` values cast to a column `[a, 1]` and repeated along each row of `[a, b]` reads, at (r, c), value r. -/
theorem column_repeated_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (r : Fin a) (c : Fin b) :
    broadcastTo ⟨2, ![a, b]⟩ (shapeCast ⟨2, ![a, 1]⟩ v h₁) h₂ (ix2 r c) = v (ix1 r) := by
  refine (broadcastTo_apply (shapeCast ⟨2, ![a, 1]⟩ v h₁) h₂ (ix2 r c) (ix2 r (0 : Fin 1)) fun ax => ?_).trans ?_
  · match ax with
    | ⟨0, _⟩ =>
      show r.val = if a = 1 then 0 else r.val
      split
      · have := r.isLt; omega
      · rfl
    | ⟨1, _⟩ =>
      show (0 : ℕ) = if (1 : ℕ) = 1 then 0 else c.val
      rw [if_pos rfl]
  · exact shapeCast_apply v h₁ _ _ (by
      rw [Shape.rowMajor_val_two, Shape.rowMajor_val_one]
      show r.val = r.val * 1 + 0
      omega)

/-- A vector of `b` values cast to a row `[1, b]` and repeated down each column of `[a, b]` reads, at (r, c), value c. -/
theorem row_repeated_apply {a b : ℕ} (v : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (r : Fin a) (c : Fin b) :
    broadcastTo ⟨2, ![a, b]⟩ (shapeCast ⟨2, ![1, b]⟩ v h₁) h₂ (ix2 r c) = v (ix1 c) :=
  (broadcastTo_1b_ab_apply _ h₂ r c).trans (shapeCast_a_1a_apply v h₁ 0 c)

/-- The sum of an `[n, 512]` array of extended reals along its second axis, started from the zero word, reads at row r the
    sum of that row's 512 entries. -/
theorem row_sum_apply {n : ℕ} (src : FVec Ideal ⟨2, ![n, 512]⟩ .f32) (h : Shape.Reduces ⟨2, ![n, 512]⟩ [1] ⟨1, ![n]⟩)
    (hφ : FKind.Formats .f32) (hacc : (0x00000000#32 : BitVec 32) = FKind.add.neutral .f32 hφ) (r : Fin n) :
    multiReduction .add [1] ⟨1, ![n]⟩ src 0x00000000#32 h hφ hacc (ix1 r) = ∑ k : Fin 512, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

end Cert.SqDist

end
-- ==== Proof.RefDist.lean ====
/- The reference computes the table of expanded squared distances: its sixteen host operations, read one at a time at an output
   index (b, c), give  (0 + Σ_k x[b,k]²) + (0 + Σ_k p[c,k]²) − 2 · Σ_k x[b,k]·p[c,k],  which is `SqDist.dist x p` at (b, c) once
   the two zero words are read as the extended real 0. -/
import proofs.«159924_j19748259627382_1_alg».proof.Proof.Gen.ReferenceIdeal.Read
import proofs.«159924_j19748259627382_1_alg».proof.Proof.SqDist

noncomputable section

namespace Cert.SqDist.Ref

open Cert.ReferenceIdeal Cert.ReferenceIdeal.Gen Cert.ReferenceIdeal.Read Idealize.ShloMosaic Idealize.ShloMosaic.ValueIdx Cert.SqDist

/-- The row of `x` that the row-sum of squares reads for output index `i` is the point `i` names. -/
theorem sumsq_x_idx (i : S16384x1000.Idx) (k : Fin 512) :
    idx_main_v1 (idx_main_v2 (idx_main_v7 i)) k = ix2 (⟨(i 0).val, (i 0).isLt⟩ : Fin 16384) k :=
  funext fun a => Fin.ext (by match a with | ⟨0, _⟩ => rfl | ⟨1, _⟩ => rfl)

/-- The row of `p` that the row-sum of squares reads for output index `i` is the prototype `i` names. -/
theorem sumsq_p_idx (i : S16384x1000.Idx) (k : Fin 512) :
    idx_main_v4 (idx_main_v6 (idx_main_v8 i)) k = ix2 (⟨(i 1).val, (i 1).isLt⟩ : Fin 1000) k :=
  funext fun a => Fin.ext (by match a with | ⟨0, _⟩ => rfl | ⟨1, _⟩ => rfl)

/-- The contraction's left operand index is entry k of that point, -/
theorem dot_x_idx (i : S16384x1000.Idx) (k : Fin 512) : lidx_main_v5 i k = ix2 (⟨(i 0).val, (i 0).isLt⟩ : Fin 16384) k :=
  funext fun a => Fin.ext (by match a with | ⟨0, _⟩ => rfl | ⟨1, _⟩ => rfl)

/-- and its right operand index entry k of that prototype. -/
theorem dot_p_idx (i : S16384x1000.Idx) (k : Fin 512) : ridx_main_v5 i k = ix2 (⟨(i 1).val, (i 1).isLt⟩ : Fin 1000) k :=
  funext fun a => Fin.ext (by match a with | ⟨0, _⟩ => rfl | ⟨1, _⟩ => rfl)

/-- The reference's result is the table of expanded squared distances. -/
theorem result_eq (x : (⟨S16384x512, .f32⟩ : BufTy).Contents (Elt Ideal)) (p : (⟨S1000x512, .f32⟩ : BufTy).Contents (Elt Ideal)) :
    val_main_v12 (F := Ideal) x p = dist x p := by
  funext i
  rw [val_main_v12_apply, val_main_v9_apply, val_main_v11_apply, val_main_v7_apply, val_main_v2_apply, val_main_v1_apply,
    val_main_v8_apply, val_main_v6_apply, val_main_v4_apply, val_main_v10_apply, val_main_v5_apply]
  simp only [val_main_cst_apply, val_main_cst_0_apply, val_main_cst_1_apply, val_main_v0_apply, val_main_v3_apply,
    sumsq_x_idx, sumsq_p_idx, dot_x_idx, dot_p_idx]
  show (Ideal.ofBits .f32 0x00000000#32 + ∑ k : Fin 512, x (ix2 (⟨(i 0).val, (i 0).isLt⟩ : Fin 16384) k) * x (ix2 (⟨(i 0).val, (i 0).isLt⟩ : Fin 16384) k)
      + (Ideal.ofBits .f32 0x00000000#32 + ∑ k : Fin 512, p (ix2 (⟨(i 1).val, (i 1).isLt⟩ : Fin 1000) k) * p (ix2 (⟨(i 1).val, (i 1).isLt⟩ : Fin 1000) k)))
      - Ideal.ofBits .f32 0x40000000#32 * ∑ k : Fin 512, x (ix2 (⟨(i 0).val, (i 0).isLt⟩ : Fin 16384) k) * p (ix2 (⟨(i 1).val, (i 1).isLt⟩ : Fin 1000) k)
    = expand (point x i) (proto p i)
  rw [Ideal.ofBits_zero_f32, zero_add, zero_add]
  rfl

end Cert.SqDist.Ref

end
-- ==== Proof.KernelEntry.lean ====
/- What the kernel body stores for one block of 1024 points, read at an entry (r, c) of the block: with `x0` the block's
   1024 points and `x1` all 1000 prototypes, the stored value is  Σ_k x0[r,k]² + Σ_k x1[c,k]² − 2 · Σ_k x0[r,k]·x1[c,k]  — the
   row sums of squares set as a column and as a row and added, minus twice the matrix product of the two operands contracted
   along their second axes into a zero accumulator (the narrowing of the operands before the product is the identity on
   extended reals). That is the expanded squared distance from row r of `x0` to row c of `x1`. -/
import proofs.«159924_j19748259627382_1_alg».proof.Proof.Gen.KernelIdeal.Skeleton
import proofs.«159924_j19748259627382_1_alg».proof.Proof.SqDist

noncomputable section

namespace Cert.SqDist.Kern

open Cert.KernelIdeal Cert.KernelIdeal.Gen Idealize.ShloMosaic Idealize.ShloMosaic.ValueIdx Cert.SqDist

/-! ## The matrix product's operand indices -/

theorem lhs_axis0 (i : S1024x1000.Idx) (q : dot_S1024x512_S1000x512_S1024x1000_1_1_0_0_n_n.contr.Idx) :
    (dot_S1024x512_S1000x512_S1024x1000_1_1_0_0_n_n.lhsIdx i q 0).val = (i 0).val := by
  unfold DotDims.lhsIdx
  rw [dif_neg (show ¬(0 : Fin S1024x512.rank) ∈ dot_S1024x512_S1000x512_S1024x1000_1_1_0_0_n_n.lhsBatch by decide), dif_pos (show (0 : Fin S1024x512.rank) ∈ dot_S1024x512_S1000x512_S1024x1000_1_1_0_0_n_n.lhsNonContracting by decide)]
  rfl
theorem lhs_axis1 (i : S1024x1000.Idx) (q : dot_S1024x512_S1000x512_S1024x1000_1_1_0_0_n_n.contr.Idx) :
    (dot_S1024x512_S1000x512_S1024x1000_1_1_0_0_n_n.lhsIdx i q 1).val = (q ⟨0, by decide⟩).val :=
  dot_S1024x512_S1000x512_S1024x1000_1_1_0_0_n_n.lhsIdx_val_of_single rfl i q
theorem rhs_axis0 (i : S1024x1000.Idx) (q : dot_S1024x512_S1000x512_S1024x1000_1_1_0_0_n_n.contr.Idx) :
    (dot_S1024x512_S1000x512_S1024x1000_1_1_0_0_n_n.rhsIdx i q 0).val = (i 1).val := by
  unfold DotDims.rhsIdx
  rw [dif_neg (show ¬(0 : Fin S1000x512.rank) ∈ dot_S1024x512_S1000x512_S1024x1000_1_1_0_0_n_n.rhsBatch by decide), dif_pos (show (0 : Fin S1000x512.rank) ∈ dot_S1024x512_S1000x512_S1024x1000_1_1_0_0_n_n.rhsNonContracting by decide)]
  rfl
theorem rhs_axis1 (i : S1024x1000.Idx) (q : dot_S1024x512_S1000x512_S1024x1000_1_1_0_0_n_n.contr.Idx) :
    (dot_S1024x512_S1000x512_S1024x1000_1_1_0_0_n_n.rhsIdx i q 1).val = (q ⟨0, by decide⟩).val :=
  dot_S1024x512_S1000x512_S1024x1000_1_1_0_0_n_n.rhsIdx_val_of_single rfl i q

/-- The product of a `[1024, 512]` operand with a `[1000, 512]` operand, both contracted along their second axes, into the zero
    accumulator: entry (r, c) is the inner product of row r of the first with row c of the second. -/
theorem cross_apply (l : FVec Ideal S1024x512 .bf16) (w : FVec Ideal S1000x512 .bf16) (r : Fin 1024) (c : Fin 1000) :
    FloatOps.matmul dot_S1024x512_S1000x512_S1024x1000_1_1_0_0_n_n none l w (constant (F := Ideal) S1024x1000 .f32 0x00000000#32) (ix2 r c)
      = ∑ k : Fin 512, l (ix2 r k) * w (ix2 c k) := by
  rw [Ideal.matmul_constant_zero_apply, ← Equiv.sum_comp (contrEquiv1 dot_S1024x512_S1000x512_S1024x1000_1_1_0_0_n_n 512 rfl rfl).symm]
  refine Finset.sum_congr rfl fun k _ => ?_
  have hk := contrEquiv1_symm_val dot_S1024x512_S1000x512_S1024x1000_1_1_0_0_n_n 512 rfl rfl k
  have el : dot_S1024x512_S1000x512_S1024x1000_1_1_0_0_n_n.lhsIdx (ix2 r c) ((contrEquiv1 dot_S1024x512_S1000x512_S1024x1000_1_1_0_0_n_n 512 rfl rfl).symm k) = ix2 r k := funext fun a => Fin.ext (by
    match a with
    | ⟨0, _⟩ => exact lhs_axis0 _ _
    | ⟨1, _⟩ => exact (lhs_axis1 _ _).trans hk)
  have er : dot_S1024x512_S1000x512_S1024x1000_1_1_0_0_n_n.rhsIdx (ix2 r c) ((contrEquiv1 dot_S1024x512_S1000x512_S1024x1000_1_1_0_0_n_n 512 rfl rfl).symm k) = ix2 c k := funext fun a => Fin.ext (by
    match a with
    | ⟨0, _⟩ => exact rhs_axis0 _ _
    | ⟨1, _⟩ => exact (rhs_axis1 _ _).trans hk)
  rw [el, er]

/-! ## The stored value at an entry of the block -/

/-- Entry (r, c) of what the body stores is the expanded squared distance from row r of the points' block to row c of the
    prototypes. -/
theorem payload_apply (x0 : Vec Ideal S1024x512 .f32) (x1 : Vec Ideal S1000x512 .f32) (r : Fin 1024) (c : Fin 1000) :
    k0_pay1 (F := Ideal) x0 x1 (ix2 r c) = expand (fun k => x0 (ix2 r k)) (fun k => x1 (ix2 c k)) := by
  unfold k0_pay1 expand
  dsimp only
  refine (subf_apply _ _ _).trans (congrArg₂ (· - ·) ?_ ?_)
  · refine (addf_apply _ _ _).trans (congrArg₂ (· + ·) ?_ ?_)
    · exact (column_repeated_apply _ _ _ r c).trans (row_sum_apply _ _ _ _ r)
    · exact (row_repeated_apply _ _ _ r c).trans (row_sum_apply _ _ _ _ c)
  · refine (mulf_apply _ _ _).trans (congrArg₂ (· * ·) rfl ?_)
    exact cross_apply _ _ r c

end Cert.SqDist.Kern

end
-- ==== Proof.KernelTable.lean ====
/- The kernel's result array is the table of expanded squared distances. Grid point t stages rows 1024·t … 1024·t + 1023 of the
   points and all of the prototypes, and writes back rows 1024·t … 1024·t + 1023 of the result; entry (r, c) of what it writes is
   the expanded squared distance from point 1024·t + r to prototype c, so each block written back is the matching block of the
   table, and the sixteen blocks cover the result array. -/
import proofs.«159924_j19748259627382_1_alg».proof.Proof.Gen.KernelIdeal.Value
import proofs.«159924_j19748259627382_1_alg».proof.Proof.KernelEntry
import Idealize.ShloMosaic.Lib.Pipeline.Value
import Idealize.ShloMosaic.Lib.Tactic

noncomputable section

namespace Cert.SqDist.Kern

open Cert.KernelIdeal Cert.KernelIdeal.Gen Cert.KernelIdeal.Value Idealize.ShloMosaic Idealize.ShloMosaic.TcCoe Idealize.SL.Sem
open Idealize.ShloMosaic.ValueIdx Cert.SqDist
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices at grid point t: the points' window and the result's are at block row t, the prototypes' window at its
    one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry y of the points' block at grid point t is the points' array at row 1024·t + y₀, column y₁. -/
theorem points_block_apply (c : Dev nD) (t : Fin cfg0.N) (y : S1024x512.Idx) (i : S16384x512.Idx)
    (h0 : (i 0).val = t.val * 1024 + (y 0).val) (h1 : (i 1).val = (y 1).val) :
    (iblk m c 0 t : Vec Ideal S1024x512 .f32) y = (m ((c : Thread nD τ).loc main_arg0) : S16384x512.Idx → Elt Ideal .f32) i := by
  obtain ⟨e0, e1, -⟩ := block_indices t
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (i 0).val; rw [e0, h0]; omega
  | ⟨1, _⟩ => show win0_0.index t 1 * 512 + 1 * (y 1).val = (i 1).val; rw [e1, h1]; omega

/-- The prototypes' block at every grid point is the whole prototypes' array. -/
theorem protos_block_apply (c : Dev nD) (t : Fin cfg0.N) (y : S1000x512.Idx) (i : S1000x512.Idx)
    (h0 : (i 0).val = (y 0).val) (h1 : (i 1).val = (y 1).val) :
    (iblk m c 1 t : Vec Ideal S1000x512 .f32) y = (m ((c : Thread nD τ).loc main_arg1) : S1000x512.Idx → Elt Ideal .f32) i := by
  obtain ⟨-, -, e2, e3, -⟩ := block_indices t
  unfold iblk
  rw [View.read_apply]
  show V m c main_arg1 _ = m (c.tc.loc main_arg1) _
  unfold V
  congr 1
  funext a
  apply Fin.ext
  match a with
  | ⟨0, _⟩ => show win0_1.index t 0 * 1000 + 1 * (y 0).val = (i 0).val; rw [e2, h0]; omega
  | ⟨1, _⟩ => show win0_1.index t 1 * 512 + 1 * (y 1).val = (i 1).val; rw [e3, h1]; omega

/-- Entry j of what grid point t stores is the table's entry at row 1024·t + j₀, column j₁. -/
theorem stored_entry (c : Dev nD) (t : Fin cfg0.N) (j : S1024x1000.Idx) (i : S16384x1000.Idx)
    (h0 : (i 0).val = t.val * 1024 + (j 0).val) (h1 : (i 1).val = (j 1).val) :
    k0_pay1 (F := Ideal) (iblk m c 0 t) (iblk m c 1 t) j
      = dist (m ((c : Thread nD τ).loc main_arg0)) (m ((c : Thread nD τ).loc main_arg1)) i := by
  obtain ⟨r, q, rfl⟩ : ∃ (r : Fin 1024) (q : Fin 1000), j = ix2 r q := ⟨j 0, j 1, eq_ix2 j⟩
  refine (payload_apply (iblk m c 0 t) (iblk m c 1 t) r q).trans ?_
  unfold dist
  refine congrArg₂ expand (funext fun k => ?_) (funext fun k => ?_)
  · exact points_block_apply m c t (ix2 r k) (ix2 (⟨(i 0).val, (i 0).isLt⟩ : Fin 16384) k) h0 rfl
  · exact protos_block_apply m c t (ix2 q k) (ix2 (⟨(i 1).val, (i 1).isLt⟩ : Fin 1000) k) h1 rfl

/-- What grid point t writes back is block t of the table. -/
theorem flushed_eq (c : Dev nD) (t : Fin cfg0.N) :
    (dats m 0 c).flushed 2 t = ((cfg0.win 2).blk t).view.read (Elt Ideal)
      (dist (m ((c : Thread nD τ).loc main_arg0)) (m ((c : Thread nD τ).loc main_arg1))) := by
  rw [Value.flushed2]
  unfold out0_2
  rw [View.canon_unit_zero origin]
  simp only [View.ld_unit_zero (S := S1024x512) origin, View.ld_unit_zero (S := S1000x512) origin]
  obtain ⟨-, -, -, -, e4, e5⟩ := block_indices t
  funext j
  refine stored_entry m c t j (((cfg0.win 2).blk t).view.emb j) ?_ ?_
  · show win0_2.index t (0 : Fin 2) * 1024 + 1 * (j 0).val = t.val * 1024 + (j 0).val
    rw [e4]; omega
  · show win0_2.index t (1 : Fin 2) * 1000 + 1 * (j 1).val = (j 1).val
    rw [e5]; omega

/-- An index of the result array is in point t's block iff each coordinate is in the block's range on its axis. -/
theorem mem_block (t : Fin cfg0.N) (i : S16384x1000.Idx) :
    i ∈ ((cfg0.win 2).blk t).view.set ↔ ∀ a : Fin 2, win0_2.index t a * S1024x1000.size a ≤ (i a).val ∧ (i a).val < win0_2.index t a * S1024x1000.size a + S1024x1000.size a := by
  show i ∈ ((View.whole main_v0).slice (win0_2.rect t)).set ↔ _
  rw [View.set_slice_whole, Rect.mem_set_unit]
  exact Iff.rfl

/-- Every index of the result array lies in the block of the grid point its row falls to. -/
theorem covered (i : S16384x1000.Idx) : ∃ t : Fin cfg0.N, (cfg0.win 2).flush t = true ∧ i ∈ ((cfg0.win 2).blk t).view.set := by
  have hN : cfg0.N = 16 := N_0
  have hi0 : (i 0).val < 16384 := (i 0).isLt
  have hi1 : (i 1).val < 1000 := (i 1).isLt
  have ht : (i 0).val / 1024 < cfg0.N := by rw [hN]; omega
  obtain ⟨-, -, -, -, e4, e5⟩ := block_indices ⟨(i 0).val / 1024, ht⟩
  refine ⟨⟨(i 0).val / 1024, ht⟩, flush0_2 _, ?_⟩
  rw [mem_block]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 1000 ≤ (i 1).val ∧ (i 1).val < win0_2.index ⟨(i 0).val / 1024, ht⟩ (1 : Fin 2) * 1000 + 1000
    rw [e5]; omega

/-- The result array after the run is the table of expanded squared distances of the argument arrays. -/
theorem final (c : Dev nD) :
    (dats m 0 c).arrAt 2 cfg0.N = dist (m ((c : Thread nD τ).loc main_arg0)) (m ((c : Thread nD τ).loc main_arg1)) :=
  (dats m 0 c).arrAt_eq_of_cover 2 (dist (m ((c : Thread nD τ).loc main_arg0)) (m ((c : Thread nD τ).loc main_arg1)))
    (fun t _ => flushed_eq m c t) covered

/-- Every run of the kernel ends with the result array at that table and the argument arrays unchanged. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.SqDist.Kern

end
-- ==== Proof.lean ====
/- The kernel and its reference both compute the table of squared Euclidean distances between 16384 points (the rows of x, each
   of 512 entries) and 1000 prototypes (the rows of p), in the expanded form  ‖x_b‖² + ‖p_c‖² − 2·⟨x_b, p_c⟩  (Proof/SqDist.lean).
   The kernel does so block by block: sixteen grid points, each taking 1024 points and all prototypes, forming the two
   vectors of squared norms by row sums, the inner products by one matrix product into a zero accumulator, and storing their
   combination (Proof/KernelEntry.lean); the blocks written back tile the result array, which therefore ends as the table
   (Proof/KernelTable.lean). The reference forms the same three terms over the whole arrays (Proof/RefDist.lean). Over the
   extended reals the two agree term for term — the same sums in the same grouping, the factor 2 the same word — so no
   algebraic law and no finiteness of the inputs is needed. The idealization rewrote nothing, so there is nothing to preserve;
   the three programs' runs terminate without fault and leave their arguments unchanged. -/
import proofs.«159924_j19748259627382_1_alg».proof.Defs
import proofs.«159924_j19748259627382_1_alg».proof.Proof.Gen.Kernel
import proofs.«159924_j19748259627382_1_alg».proof.Proof.Gen.Kernel.Skeleton
import proofs.«159924_j19748259627382_1_alg».proof.Proof.Gen.Kernel.Launch
import proofs.«159924_j19748259627382_1_alg».proof.Proof.Gen.Kernel.Points
import proofs.«159924_j19748259627382_1_alg».proof.Proof.Gen.Kernel.Frame
import proofs.«159924_j19748259627382_1_alg».proof.Proof.Gen.KernelIdeal
import proofs.«159924_j19748259627382_1_alg».proof.Proof.Gen.KernelIdeal.Skeleton
import proofs.«159924_j19748259627382_1_alg».proof.Proof.Gen.KernelIdeal.Launch
import proofs.«159924_j19748259627382_1_alg».proof.Proof.Gen.KernelIdeal.Points
import proofs.«159924_j19748259627382_1_alg».proof.Proof.Gen.KernelIdeal.Frame
import proofs.«159924_j19748259627382_1_alg».proof.Proof.Gen.ReferenceIdeal
import proofs.«159924_j19748259627382_1_alg».proof.Proof.Gen.Pre_finite_inputs
import proofs.«159924_j19748259627382_1_alg».proof.Proof.Gen.KernelIdeal.Value
import proofs.«159924_j19748259627382_1_alg».proof.Proof.Gen.ReferenceIdeal.Run
import proofs.«159924_j19748259627382_1_alg».proof.Proof.Gen.ReferenceIdeal.Read
import proofs.«159924_j19748259627382_1_alg».proof.Proof.RefDist
import proofs.«159924_j19748259627382_1_alg».proof.Proof.KernelTable
import Idealize.ShloMosaic.Adequacy
import Idealize.ShloMosaic.Init

noncomputable section

namespace Cert.Proof

open Idealize.ShloMosaic Idealize.ShloMosaic.TcCoe Idealize.SL.Sem

/-- The kernel as printed runs to its end, nothing faulting, its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run to the table of distances, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x and p, the kernel's result array and the reference's both end as the table of expanded squared
    distances of x and p. -/
theorem algebraic : Cert.algebraic_KernelIdeal_ReferenceIdeal := by
  intro m ρ m' ρ' _ hagree
  refine ⟨fun c => Cert.SqDist.dist (m ((c : Thread Cert.KernelIdeal.nD Cert.KernelIdeal.τ).loc Cert.KernelIdeal.main_arg0))
      (m ((c : Thread Cert.KernelIdeal.nD Cert.KernelIdeal.τ).loc Cert.KernelIdeal.main_arg1)), Cert.SqDist.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.SqDist.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
